-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S67108864 : Shape := ⟨1, ![67108864]⟩
abbrev S_ : Shape := ⟨0, ![]⟩

class Facts : Prop where
  bcast_S_S67108864 : S_.BroadcastsInDim S67108864 (![] : Fin 0 → Fin S67108864.rank)
  reducesTo_S67108864_S_d0 : S67108864.ReducesTo [0] S_
  h_S_ : 0 < S_.numel

variable [Facts]

def fn {F : FTy → Type} [FloatOps F] (main_arg0 : FVec F S67108864 .f32) : IVec S_ 1 :=
  let main_v0 : FVec F S67108864 .f32 := Host.absf main_arg0
  let main_cst : FVec F S_ .f32 := constant S_ .f32 0x7F800000#32
  let main_v1 : FVec F S67108864 .f32 := broadcastInDim S67108864 ![] bcast_S_S67108864 main_cst
  let main_v2 : IVec S67108864 1 := cmpf .olt main_v0 main_v1
  let main_c : IVec S_ 1 := constantI S_ 1 1#1
  let main_v3 : IVec S_ 1 := (fun x v => Host.reduce IntOp.andi x v reducesTo_S67108864_S_d0 h_S_) main_v2 main_c
  main_v3
-- ==== Kernel.lean ====
abbrev S67108864 : Shape := ⟨1, ![67108864]⟩
abbrev S524288x128 : Shape := ⟨2, ![524288, 128]⟩
abbrev S8192x128 : Shape := ⟨2, ![8192, 128]⟩

abbrev nBuf : Space → Nat
  | .hbm => 4
  | .vmem => 4
  | .smem => 0
  | _ => 0

abbrev bufTy : (tb : Table) → Fin (tcTables nBuf tb) → BufTy
  | .hbm, ⟨0, _⟩ => ⟨S67108864, .f32⟩
  | .hbm, ⟨1, _⟩ => ⟨S524288x128, .f32⟩
  | .hbm, ⟨2, _⟩ => ⟨S524288x128, .f32⟩
  | .hbm, ⟨3, _⟩ => ⟨S67108864, .f32⟩
  | .local _ .vmem, ⟨0, _⟩ => ⟨S8192x128, .f32⟩
  | .local _ .vmem, ⟨1, _⟩ => ⟨S8192x128, .f32⟩
  | .local _ .vmem, ⟨2, _⟩ => ⟨S8192x128, .f32⟩
  | .local _ .vmem, ⟨3, _⟩ => ⟨S8192x128, .f32⟩
  | _, _ => ⟨S67108864, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S67108864_S524288x128 : S67108864.ShapeCasts S524288x128
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  shapeCasts_S524288x128_S67108864 : S524288x128.ShapeCasts S67108864
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S524288x128.size a
  hwx0_0 : ∀ i : grid0.Coords, EltTy.bits .f32 = 32 ∨ (Rect.block (s := S524288x128) S8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S524288x128.size a
  hwx0_1 : ∀ i : grid0.Coords, EltTy.bits .f32 = 32 ∨ (Rect.block (s := S524288x128) S8192x128.size (cc0_transform_1 i) (hinb0_1 i)).WholeWords (EltTy.packing .f32)

variable [Facts₀]

abbrev win0_0 : Pipeline.Window sig grid0 :=
  Pipeline.Window.ofSpec (Memref.whole main_v0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8192x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S67108864 : Shape := ⟨1, ![67108864]⟩

abbrev nBuf : Space → Nat
  | .hbm => 2
  | .vmem => 0
  | .smem => 0
  | _ => 0

abbrev bufTy : (tb : Table) → Fin (tcTables nBuf tb) → BufTy
  | .hbm, ⟨0, _⟩ => ⟨S67108864, .f32⟩
  | .hbm, ⟨1, _⟩ => ⟨S67108864, .f32⟩
  | _, _ => ⟨S67108864, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]

class Facts₀ : Prop where

variable [Facts₀]

class Facts : Prop extends Facts₀ where

variable [Facts]
-- ==== Proof.Entrywise.lean ====
/-
  The mathematics both programs share, stated over no program.

  The kernel lays the flat array of 67,108,864 numbers out as 524,288 rows of 128 (row-major), takes the reciprocal
  square root of every entry, and lays the rows out flat again; the reference takes the reciprocal square root of every
  entry of the flat array directly. Two facts make these one function:

  * a row-major re-layout only renames positions, so re-laying an array out, applying ONE function to every entry, and
    re-laying the result back is applying that function to every entry of the original array (`relayout_entrywise`);
  * over the extended reals the reciprocal square root the kernel's vector unit computes and the one the host computes
    are the same function `x ↦ 1 / √x` (with `+∞ ↦ 0`, `0 ↦ +∞`), so the two entrywise maps agree (`host_rsqrt_entry`).

  No law of arithmetic is used, so nothing here asks the entries to be finite.
-/
import Idealize.ShloMosaic.PureOps.Ideal
import Idealize.ShloMosaic.Lib.Pipeline.Value

noncomputable section

namespace Cert.Entrywise

open Idealize.ShloMosaic

/-- Re-lay `x` out under the shape `t`, apply `f` to every entry, re-lay the result out under the original shape `s`:
    entry `j` of the outcome is `f (x j)`. The two re-layouts are mutually inverse renamings of positions (each keeps
    the row-major position), so position `j` is sent to itself. -/
theorem relayout_entrywise {s t : Shape} {α β : Type} (f : α → β) (x : s.Idx → α)
    (h : s.ShapeCasts t) (h' : t.ShapeCasts s) :
    shapeCast s (fun i => f (shapeCast t x h i)) h' = fun j => f (x j) := by
  funext j
  show f (x (Shape.reshapeEquiv _ (Shape.reshapeEquiv _ j))) = f (x j)
  rw [Shape.reshapeEquiv_reshapeEquiv, Shape.reshapeEquiv_self]

/-- Over the extended reals the host's reciprocal square root of a number is the vector unit's: both are
    `x ↦ 1 / √x`. -/
theorem host_rsqrt_entry (x : Ideal .f32) :
    FloatOps.hostUnary (F := Ideal) .rsqrt x = FloatOps.rsqrt (F := Ideal) x := by
  simp only [Ideal.rsqrt_def, Ideal.hostUnary_rsqrt_def]

end Cert.Entrywise

end
-- ==== Proof.KernelRows.lean ====
/-
  What the idealized kernel program leaves in its result, read off its frame run.

  The program lays the flat input out as 524,288 rows of 128 (a host re-layout before the region), runs the body on
  64 tiles of 8,192 rows each, and lays the rows out flat again (a host re-layout after the region).

  * At a tile the body loads the tile of the input rows, takes the reciprocal square root entry by entry, and stores
    the whole tile of the output: so what tile `t` writes back is tile `t` of ONE array, the entrywise reciprocal
    square root of the input rows (`tile_written`). Input and output tiles sit at the same place: tile `t` is rows
    `8192·t … 8192·t + 8191`, all 128 columns.
  * The 64 tiles cover every row (row `r` is in tile `r / 8192`), so after the region the output rows ARE that array
    (`rows_after`).
  * The re-layouts before and after the region are mutually inverse renamings of positions, so the flat result is the
    entrywise reciprocal square root of the flat input (`result_eq`, by `Entrywise.relayout_entrywise`).
-/
import proofs.«123855_j61933428415408_1_alg».proof.Proof.Gen.KernelIdeal.Frame
import proofs.«123855_j61933428415408_1_alg».proof.Proof.Entrywise
import Idealize.ShloMosaic.Lib.Pipeline.Value
import Idealize.ShloMosaic.Lib.StableHlo.Run

set_option maxRecDepth 16384

noncomputable section

namespace Cert.KernelIdeal.Rows

open Idealize.ShloMosaic Idealize.ShloMosaic.TcCoe Idealize.SL.Sem
open Cert.KernelIdeal Cert.KernelIdeal.Gen
open Idealize.ShloMosaic.Pipeline (Dat)

variable {F : FTy → Type} [FloatOps F]
variable (m : (ℓ : Loc nD τ sig) → Buf (Elt F) ℓ) (ρ : Dev nD → PrngReg)

/-- The body's loads and its store start at row 0, column 0 of the tile. -/
theorem origin : (![0, 0] : Fin 2 → Nat) = fun _ => 0 := funext fun a => by fin_cases a <;> rfl

/-- The entrywise reciprocal square root of an array of rows. -/
abbrev rsqrtRows (y : S524288x128.Idx → Elt F .f32) : S524288x128.Idx → Elt F .f32 := fun i => FloatOps.rsqrt (y i)

/-- The input rows as the region finds them: the flat input re-laid out row-major. -/
theorem rows_eq (c : Dev nD) :
    (V m c main_v0 : S524288x128.Idx → Elt F .f32)
      = shapeCast S524288x128 (m ((c : Thread nD τ).loc main_arg0)) shapeCasts_S67108864_S524288x128 := by
  show StableHlo.after hostOps0 (fun b => m (c, b)) (Proc.devRef .tc main_v0) = _
  after_results
  rfl

/-- What the body stores is the entrywise reciprocal square root of the tile it loaded (the re-layout of a tile to its
    own shape in between changes nothing). -/
theorem stored_eq (x0 : Vec F S8192x128 .f32) : k0_pay1 x0 = rsqrt x0 := by
  show rsqrt (shapeCast S8192x128 x0 _) = rsqrt x0
  rw [shapeCast_self]

/-- The tiles of the input rows and of the output rows sit at the same place, and there are 64 of them down the rows
    and one across the columns (decided over the 64 points). -/
theorem same_tile : ∀ t : Fin cfg0.N, win0_0.index t (0 : Fin 2) = win0_1.index t (0 : Fin 2)
    ∧ win0_0.index t (1 : Fin 2) = win0_1.index t (1 : Fin 2) :=
  (by decide +kernel : ∀ t : Fin grid0.N, _)

/-- Every one of the 64 tile positions down the rows is some point's. -/
theorem tile_onto : ∀ q : Fin 64, ∃ t : Fin cfg0.N, win0_1.index t = ![q.val, 0] :=
  (by decide +kernel : ∀ q : Fin 64, ∃ t : Fin grid0.N, win0_1.index t = ![q.val, 0])

/-- What point `t` writes back is tile `t` of the entrywise reciprocal square root of the input rows. -/
theorem tile_written (c : Dev nD) (t : Fin cfg0.N) :
    (dats m 0 c).flushed 1 t = ((cfg0.win 1).blk t).view.read (Elt F) (rsqrtRows (V m c main_v0)) := by
  show (cfg0.win 1).cut (grid0.coords t) ((dats m 0 c).after 1 t) = _
  rw [after0_1]
  unfold out0_1
  rw [View.canon_unit_zero origin]
  simp only [View.ld_unit_zero (S := S8192x128) origin]
  rw [stored_eq]
  obtain ⟨e0, e1⟩ := same_tile t
  funext j
  show FloatOps.rsqrt (V m c main_v0 (((cfg0.win 0).blk t).view.emb j)) = FloatOps.rsqrt (V m c main_v0 (((cfg0.win 1).blk t).view.emb j))
  have h0 : ((cfg0.win 0).blk t).view.emb j = ((cfg0.win 1).blk t).view.emb j := by
    funext a; apply Fin.ext
    match a with
    | ⟨0, _⟩ => show win0_0.index t (0 : Fin 2) * 8192 + 1 * (j 0).val = win0_1.index t (0 : Fin 2) * 8192 + 1 * (j 0).val; rw [e0]
    | ⟨1, _⟩ => show win0_0.index t (1 : Fin 2) * 128 + 1 * (j 1).val = win0_1.index t (1 : Fin 2) * 128 + 1 * (j 1).val; rw [e1]
  rw [h0]

/-- A position of the output rows is in point `t`'s tile iff its row and its column are in the tile's ranges. -/
theorem mem_tile (t : Fin cfg0.N) (i : S524288x128.Idx) :
    i ∈ ((cfg0.win 1).blk t).view.set ↔ ∀ a : Fin 2, win0_1.index t a * S8192x128.size a ≤ (i a).val ∧ (i a).val < win0_1.index t a * S8192x128.size a + S8192x128.size a := by
  show i ∈ ((View.whole main_v1).slice (win0_1.rect t)).set ↔ _
  rw [View.set_slice_whole, Rect.mem_set_unit]
  exact Iff.rfl

/-- Every position of the output rows is written back by some point: row `r` lies in tile `r / 8192`. -/
theorem every_row_written (i : S524288x128.Idx) :
    ∃ t : Fin cfg0.N, (cfg0.win 1).flush t = true ∧ i ∈ ((cfg0.win 1).blk t).view.set := by
  have hi0 : (i 0).val < 524288 := (i 0).isLt
  have hi1 : (i 1).val < 128 := (i 1).isLt
  obtain ⟨t, ht⟩ := tile_onto ⟨(i 0).val / 8192, by omega⟩
  have q0 : win0_1.index t (0 : Fin 2) = (i 0).val / 8192 := congrFun ht 0
  have q1 : win0_1.index t (1 : Fin 2) = 0 := congrFun ht 1
  refine ⟨t, flush0_1 t, ?_⟩
  rw [mem_tile]
  intro a
  match a with
  | ⟨0, _⟩ => show win0_1.index t (0 : Fin 2) * 8192 ≤ (i 0).val ∧ (i 0).val < win0_1.index t (0 : Fin 2) * 8192 + 8192; omega
  | ⟨1, _⟩ => show win0_1.index t (1 : Fin 2) * 128 ≤ (i 1).val ∧ (i 1).val < win0_1.index t (1 : Fin 2) * 128 + 128; omega

/-- The output rows after the region: the entrywise reciprocal square root of the input rows. -/
theorem rows_after (c : Dev nD) : (dats m 0 c).arrAt 1 cfg0.N = rsqrtRows (V m c main_v0) :=
  (dats m 0 c).arrAt_eq_of_cover 1 (rsqrtRows (V m c main_v0)) (fun t _ => tile_written m c t) every_row_written

/-- The program's flat result: the entrywise reciprocal square root of the flat input. -/
theorem result_eq (c : Dev nD) :
    Pipeline.afterTail₀ cfgs (dats m) 0 (V0 m) [hostOps1] c main_v2
      = fun j => FloatOps.rsqrt (m ((c : Thread nD τ).loc main_arg0) j) := by
  unfold Pipeline.afterTail₀
  show StableHlo.after hostOps1 _ (Proc.devRef .tc main_v2) = _
  after_results
  have rows : Pipeline.withArrays (cfgs 0).spec c (V0 m c) (fun w => (dats m 0 c).arrAt w (cfgs 0).N) (Proc.devRef .tc main_v1)
      = rsqrtRows (shapeCast S524288x128 (m ((c : Thread nD τ).loc main_arg0)) shapeCasts_S67108864_S524288x128) :=
    ((Pipeline.withArrays_arr spec0 launch0.win.arr_inj c _ _ 1).trans (rows_after m c)).trans
      (congrArg rsqrtRows (rows_eq m c))
  rw [rows]
  exact Cert.Entrywise.relayout_entrywise (fun x => FloatOps.rsqrt x) _ _ _

/-- The run of the idealized kernel program, read: every weakly fair execution ends with the flat result at the entrywise
    reciprocal square root of the flat input, and the input as it was. The result buffer and the input are buffers the
    region does not stage, so the frame run gives each as the host lines after the region leave it. -/
theorem run : θ_run defs (onTc (τ := τ) (main (F := F))) ⟨m, fun _ => 0, ρ⟩ fun r => ∀ c : Dev nD,
      r.2.mem ((c.tc : Thread nD τ).loc main_v2) = (fun j => FloatOps.rsqrt (m ((c.tc : Thread nD τ).loc main_arg0) j))
      ∧ r.2.mem ((c.tc : Thread nD τ).loc main_arg0) = m ((c.tc : Thread nD τ).loc main_arg0) :=
  (θ_run defs _ _).mono (fun r h c =>
      ⟨((h c).2 main_v2 (Pipeline.mem_restRefs_of main_v2 (by decide) (by decide))).trans (result_eq m c),
       ((h c).2 main_arg0 (Pipeline.mem_restRefs_of main_arg0 (by decide) (by decide))).trans (W_main_arg0 m (dats m) c)⟩)
    (run_main m ρ)

end Cert.KernelIdeal.Rows

end
-- ==== Proof.ReferenceFlat.lean ====
/-
  What the idealized reference leaves in its result: its one host operation takes the reciprocal square root of the flat
  input, which over the extended reals is, entry by entry, the same `x ↦ 1 / √x` the kernel's vector unit takes.
-/
import proofs.«123855_j61933428415408_1_alg».proof.Proof.Gen.ReferenceIdeal.Read
import proofs.«123855_j61933428415408_1_alg».proof.Proof.Entrywise

noncomputable section

namespace Cert.ReferenceIdeal.Flat

open Idealize.ShloMosaic
open Cert.ReferenceIdeal

/-- The reference's result, entry `j`: the reciprocal square root of entry `j` of the input. -/
theorem result_eq (x : (⟨S67108864, .f32⟩ : BufTy).Contents (Elt Ideal)) :
    Host.rsqrt (F := Ideal) (φ := .f32) x = fun j => FloatOps.rsqrt (F := Ideal) (φ := .f32) (x j) := by
  rw [Read.val_main_v0_eq]
  funext j
  rw [Read.val_main_v0_apply]
  exact Cert.Entrywise.host_rsqrt_entry _

end Cert.ReferenceIdeal.Flat

end
-- ==== Proof.lean ====
/-
  The reciprocal square root of a flat array of 67,108,864 numbers: a tiled kernel against the one-line reference.

  The kernel lays the array out as 524,288 rows of 128, streams it through 64 tiles of 8,192 rows — each tile loaded,
  its reciprocal square roots taken entry by entry, stored — and lays the rows out flat again. The reference takes
  the reciprocal square root of the flat array on the host.

  Over the extended reals both results are, at every position `j`, `1 / √(x j)`:
  * the kernel's, because the tiles cover every row, each tile is a restriction of ONE entrywise map of the rows, and
    the two row-major re-layouts undo each other (Proof/KernelRows.lean over Proof/Entrywise.lean);
  * the reference's, because the host's reciprocal square root and the vector unit's are one function of an extended
    real (Proof/ReferenceFlat.lean).
  No arithmetic law joins the two sides, so the inputs' finiteness is never used. The idealization rewrote nothing, so
  the kernel's idealization is its own text read over the extended reals and that claim is trivially true.
  Each program runs without a fault and leaves its input as it was: the two kernel programs by their frame runs, the
  reference by its run with the result dropped.
-/
import proofs.«123855_j61933428415408_1_alg».proof.Defs
import proofs.«123855_j61933428415408_1_alg».proof.Proof.Gen.Kernel
import proofs.«123855_j61933428415408_1_alg».proof.Proof.Gen.Kernel.Skeleton
import proofs.«123855_j61933428415408_1_alg».proof.Proof.Gen.Kernel.Launch
import proofs.«123855_j61933428415408_1_alg».proof.Proof.Gen.Kernel.Points
import proofs.«123855_j61933428415408_1_alg».proof.Proof.Gen.Kernel.Frame
import proofs.«123855_j61933428415408_1_alg».proof.Proof.Gen.KernelIdeal
import proofs.«123855_j61933428415408_1_alg».proof.Proof.Gen.KernelIdeal.Skeleton
import proofs.«123855_j61933428415408_1_alg».proof.Proof.Gen.KernelIdeal.Launch
import proofs.«123855_j61933428415408_1_alg».proof.Proof.Gen.KernelIdeal.Points
import proofs.«123855_j61933428415408_1_alg».proof.Proof.Gen.KernelIdeal.Frame
import proofs.«123855_j61933428415408_1_alg».proof.Proof.Gen.ReferenceIdeal
import proofs.«123855_j61933428415408_1_alg».proof.Proof.Gen.Pre_finite_inputs
import proofs.«123855_j61933428415408_1_alg».proof.Proof.Gen.ReferenceIdeal.Run
import proofs.«123855_j61933428415408_1_alg».proof.Proof.Gen.ReferenceIdeal.Read
import proofs.«123855_j61933428415408_1_alg».proof.Proof.KernelRows
import proofs.«123855_j61933428415408_1_alg».proof.Proof.ReferenceFlat
import Idealize.ShloMosaic.Adequacy
import Idealize.ShloMosaic.Init

noncomputable section

namespace Cert.Proof

open Idealize.ShloMosaic Idealize.SL.Sem

/-- The kernel as printed runs and keeps its input. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and keeps its input: its run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten to idealize the kernel. -/
theorem preserves : Cert.preserves_Kernel_KernelIdeal := trivial

/-- From equal inputs both programs end with `1 / √(x j)` at every position `j` of the result. -/
theorem algebraic : Cert.algebraic_KernelIdeal_ReferenceIdeal := by
  intro m ρ m' ρ' _ hagree
  refine ⟨_, Cert.KernelIdeal.Rows.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [hagree c]
  exact Cert.ReferenceIdeal.Flat.result_eq _

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
